-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S32x80 : Shape := ⟨2, ![32, 80]⟩
abbrev S1x80 : Shape := ⟨2, ![1, 80]⟩
abbrev S64x16 : Shape := ⟨2, ![64, 16]⟩
abbrev S1x16 : Shape := ⟨2, ![1, 16]⟩
abbrev S_ : Shape := ⟨0, ![]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S32x80 : S_.BroadcastsInDim S32x80 (![] : Fin 0 → Fin S32x80.rank)
  reducesTo_S32x80_S_d0_1 : S32x80.ReducesTo [0, 1] S_
  bcast_S_S1x80 : S_.BroadcastsInDim S1x80 (![] : Fin 0 → Fin S1x80.rank)
  reducesTo_S1x80_S_d0_1 : S1x80.ReducesTo [0, 1] S_
  bcast_S_S64x16 : S_.BroadcastsInDim S64x16 (![] : Fin 0 → Fin S64x16.rank)
  reducesTo_S64x16_S_d0_1 : S64x16.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg4 : FVec F S1x16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  main_v23

def fn {F : FTy → Type} [FloatOps F] (main_arg0 : FVec F S262144x32 .f32) (main_arg1 : FVec F S32x80 .f32) (main_arg2 : FVec F S1x80 .f32) (main_arg3 : FVec F S64x16 .f32) (main_arg4 : FVec F S1x16 .f32) : IVec S_ 1 :=
  let main_v0 : FVec F S262144x32 .f32 := Host.absf main_arg0
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S32x80 .f32 := Host.absf main_arg1
  let main_cst_0 : FVec F S_ .f32 := constant S_ .f32 0x7F800000#32
  let main_v5 : FVec F S32x80 .f32 := broadcastInDim S32x80 ![] bcast_S_S32x80 main_cst_0
  let main_v6 : IVec S32x80 1 := cmpf .olt main_v4 main_v5
  let main_c_1 : IVec S_ 1 := constantI S_ 1 1#1
  let main_v7 : IVec S_ 1 := (fun x v => Host.reduce IntOp.andi x v reducesTo_S32x80_S_d0_1 h_S_) main_v6 main_c_1
  let main_v8 : IVec S_ 1 := andi main_v3 main_v7
  let main_v9 : FVec F S1x80 .f32 := Host.absf main_arg2
  let main_cst_2 : FVec F S_ .f32 := constant S_ .f32 0x7F800000#32
  let main_v10 : FVec F S1x80 .f32 := broadcastInDim S1x80 ![] bcast_S_S1x80 main_cst_2
  let main_v11 : IVec S1x80 1 := cmpf .olt main_v9 main_v10
  let main_c_3 : IVec S_ 1 := constantI S_ 1 1#1
  let main_v12 : IVec S_ 1 := (fun x v => Host.reduce IntOp.andi x v reducesTo_S1x80_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_v13 main_v16
-- ==== Kernel.lean ====
abbrev S262144x32 : Shape := ⟨2, ![262144, 32]⟩
abbrev S32x80 : Shape := ⟨2, ![32, 80]⟩
abbrev S1x80 : Shape := ⟨2, ![1, 80]⟩
abbrev S64x16 : Shape := ⟨2, ![64, 16]⟩
abbrev S1x16 : Shape := ⟨2, ![1, 16]⟩
abbrev S262144x64 : Shape := ⟨2, ![262144, 64]⟩
abbrev S262144x16 : Shape := ⟨2, ![262144, 16]⟩
abbrev S8192x32 : Shape := ⟨2, ![8192, 32]⟩
abbrev S8192x64 : Shape := ⟨2, ![8192, 64]⟩
abbrev S8192x16 : Shape := ⟨2, ![8192, 16]⟩
abbrev S8192x80 : Shape := ⟨2, ![8192, 80]⟩

abbrev nBuf : Space → Nat
  | .hbm => 8
  | .vmem => 12
  | .smem => 0
  | _ => 0

abbrev bufTy : (tb : Table) → Fin (tcTables nBuf tb) → BufTy
  | .hbm, ⟨0, _⟩ => ⟨S262144x32, .f32⟩
  | .hbm, ⟨1, _⟩ => ⟨S32x80, .f32⟩
  | .hbm, ⟨2, _⟩ => ⟨S1x80, .f32⟩
  | .hbm, ⟨3, _⟩ => ⟨S64x16, .f32⟩
  | .hbm, ⟨4, _⟩ => ⟨S1x16, .f32⟩
  | .hbm, ⟨5, _⟩ => ⟨S262144x64, .f32⟩
  | .hbm, ⟨6, _⟩ => ⟨S262144x16, .f32⟩
  | .hbm, ⟨7, _⟩ => ⟨S262144x16, .f32⟩
  | .local _ .vmem, ⟨0, _⟩ => ⟨S8192x32, .f32⟩
  | .local _ .vmem, ⟨1, _⟩ => ⟨S8192x32, .f32⟩
  | .local _ .vmem, ⟨2, _⟩ => ⟨S32x80, .f32⟩
  | .local _ .vmem, ⟨3, _⟩ => ⟨S1x80, .f32⟩
  | .local _ .vmem, ⟨4, _⟩ => ⟨S64x16, .f32⟩
  | .local _ .vmem, ⟨5, _⟩ => ⟨S1x16, .f32⟩
  | .local _ .vmem, ⟨6, _⟩ => ⟨S8192x64, .f32⟩
  | .local _ .vmem, ⟨7, _⟩ => ⟨S8192x64, .f32⟩
  | .local _ .vmem, ⟨8, _⟩ => ⟨S8192x16, .f32⟩
  | .local _ .vmem, ⟨9, _⟩ => ⟨S8192x16, .f32⟩
  | .local _ .vmem, ⟨10, _⟩ => ⟨S8192x16, .f32⟩
  | .local _ .vmem, ⟨11, _⟩ => ⟨S8192x16, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S8192x32_S8192x32_0_0 : ∀ a, (![0, 0] : Fin 2 → Nat) a + S8192x32.size a ≤ S8192x32.size a
  h_S8192x32 : 0 < S8192x32.numel
  inb_S32x80_S32x80_0_0 : ∀ a, (![0, 0] : Fin 2 → Nat) a + S32x80.size a ≤ S32x80.size a
  h_S32x80 : 0 < S32x80.numel
  inb_S1x80_S1x80_0_0 : ∀ a, (![0, 0] : Fin 2 → Nat) a + S1x80.size a ≤ S1x80.size a
  h_S1x80 : 0 < S1x80.numel
  broadcasts_S1x80_S8192x80 : S1x80.Broadcasts S8192x80
  slices_S8192x80_o0_0_S8192x64 : S8192x80.Slices ![0, 0] S8192x64
  slices_S8192x80_o0_64_S8192x16 : S8192x80.Slices ![0, 64] S8192x16
  inb_S8192x64_S8192x64_0_0 : ∀ a, (![0, 0] : Fin 2 → Nat) a + S8192x64.size a ≤ S8192x64.size a
  h_S8192x64 : 0 < S8192x64.numel
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  broadcasts_S1x16_S8192x16 : S1x16.Broadcasts S8192x16
  inb_S8192x16_S8192x16_0_0 : ∀ a, (![0, 0] : Fin 2 → Nat) a + S8192x16.size a ≤ S8192x16.size a
  h_S8192x16 : 0 < S8192x16.numel
  dot_S8192x32_S32x80_S8192x80_1_0_0_1_n_n_wf : DotDims.WF S8192x32 S32x80 S8192x80 [1] [0] [0] [1] [] []
  dot_S8192x64_S64x16_S8192x16_1_0_0_1_n_n_wf : DotDims.WF S8192x64 S64x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S262144x32.size a
  hwx0_0 : ∀ i : grid0.Coords, EltTy.bits .f32 = 32 ∨ (Rect.block (s := S262144x32) S8192x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x80.size a ≤ S32x80.size a
  hwx0_1 : ∀ i : grid0.Coords, EltTy.bits .f32 = 32 ∨ (Rect.block (s := S32x80) S32x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x80.size a ≤ S1x80.size a
  hwx0_2 : ∀ i : grid0.Coords, EltTy.bits .f32 = 32 ∨ (Rect.block (s := S1x80) S1x80.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x64.size a ≤ S262144x64.size a
  hwx0_5 : ∀ i : grid0.Coords, EltTy.bits .f32 = 32 ∨ (Rect.block (s := S262144x64) S8192x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x16.size a ≤ S262144x16.size a
  hwx0_6 : ∀ i : grid0.Coords, EltTy.bits .f32 = 32 ∨ (Rect.block (s := S262144x16) S8192x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x16.size a ≤ S262144x16.size a
  hwx0_7 : ∀ i : grid0.Coords, EltTy.bits .f32 = 32 ∨ (Rect.block (s := S262144x16) S8192x16.size (cc0_transform_7 i) (hinb0_7 i)).WholeWords (EltTy.packing .f32)

variable [Facts₀]

def dot_S8192x32_S32x80_S8192x80_1_0_0_1_n_n : DotDims S8192x32 S32x80 S8192x80 where
  lhsContracting := [1]
  rhsContracting := [0]
  lhsNonContracting := [0]
  rhsNonContracting := [1]
  lhsBatch := []
  rhsBatch := []
  wf := dot_S8192x32_S32x80_S8192x80_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x80.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S8192x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S8192x16.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S8192x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x32 : Shape := ⟨2, ![262144, 32]⟩
abbrev S32x80 : Shape := ⟨2, ![32, 80]⟩
abbrev S1x80 : Shape := ⟨2, ![1, 80]⟩
abbrev S64x16 : Shape := ⟨2, ![64, 16]⟩
abbrev S1x16 : Shape := ⟨2, ![1, 16]⟩
abbrev S262144x64 : Shape := ⟨2, ![262144, 64]⟩
abbrev S262144x16 : Shape := ⟨2, ![262144, 16]⟩
abbrev S256x32 : Shape := ⟨2, ![256, 32]⟩
abbrev S256x64 : Shape := ⟨2, ![256, 64]⟩
abbrev S256x16 : Shape := ⟨2, ![256, 16]⟩
abbrev S256x80 : Shape := ⟨2, ![256, 80]⟩

abbrev nBuf : Space → Nat
  | .hbm => 8
  | .vmem => 12
  | .smem => 0
  | _ => 0

abbrev bufTy : (tb : Table) → Fin (tcTables nBuf tb) → BufTy
  | .hbm, ⟨0, _⟩ => ⟨S262144x32, .f32⟩
  | .hbm, ⟨1, _⟩ => ⟨S32x80, .f32⟩
  | .hbm, ⟨2, _⟩ => ⟨S1x80, .f32⟩
  | .hbm, ⟨3, _⟩ => ⟨S64x16, .f32⟩
  | .hbm, ⟨4, _⟩ => ⟨S1x16, .f32⟩
  | .hbm, ⟨5, _⟩ => ⟨S262144x64, .f32⟩
  | .hbm, ⟨6, _⟩ => ⟨S262144x16, .f32⟩
  | .hbm, ⟨7, _⟩ => ⟨S262144x16, .f32⟩
  | .local _ .vmem, ⟨0, _⟩ => ⟨S256x32, .f32⟩
  | .local _ .vmem, ⟨1, _⟩ => ⟨S256x32, .f32⟩
  | .local _ .vmem, ⟨2, _⟩ => ⟨S32x80, .f32⟩
  | .local _ .vmem, ⟨3, _⟩ => ⟨S1x80, .f32⟩
  | .local _ .vmem, ⟨4, _⟩ => ⟨S64x16, .f32⟩
  | .local _ .vmem, ⟨5, _⟩ => ⟨S1x16, .f32⟩
  | .local _ .vmem, ⟨6, _⟩ => ⟨S256x64, .f32⟩
  | .local _ .vmem, ⟨7, _⟩ => ⟨S256x64, .f32⟩
  | .local _ .vmem, ⟨8, _⟩ => ⟨S256x16, .f32⟩
  | .local _ .vmem, ⟨9, _⟩ => ⟨S256x16, .f32⟩
  | .local _ .vmem, ⟨10, _⟩ => ⟨S256x16, .f32⟩
  | .local _ .vmem, ⟨11, _⟩ => ⟨S256x16, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S256x32_S256x32_0_0 : ∀ a, (![0, 0] : Fin 2 → Nat) a + S256x32.size a ≤ S256x32.size a
  h_S256x32 : 0 < S256x32.numel
  inb_S32x80_S32x80_0_0 : ∀ a, (![0, 0] : Fin 2 → Nat) a + S32x80.size a ≤ S32x80.size a
  h_S32x80 : 0 < S32x80.numel
  inb_S1x80_S1x80_0_0 : ∀ a, (![0, 0] : Fin 2 → Nat) a + S1x80.size a ≤ S1x80.size a
  h_S1x80 : 0 < S1x80.numel
  broadcasts_S1x80_S256x80 : S1x80.Broadcasts S256x80
  slices_S256x80_o0_0_S256x64 : S256x80.Slices ![0, 0] S256x64
  slices_S256x80_o0_64_S256x16 : S256x80.Slices ![0, 64] S256x16
  natLt_1_32 : 1 < 32
  inb_S256x64_S256x64_0_0 : ∀ a, (![0, 0] : Fin 2 → Nat) a + S256x64.size a ≤ S256x64.size a
  h_S256x64 : 0 < S256x64.numel
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  broadcasts_S1x16_S256x16 : S1x16.Broadcasts S256x16
  inb_S256x16_S256x16_0_0 : ∀ a, (![0, 0] : Fin 2 → Nat) a + S256x16.size a ≤ S256x16.size a
  h_S256x16 : 0 < S256x16.numel
  dot_S256x32_S32x80_S256x80_1_0_0_1_n_n_wf : DotDims.WF S256x32 S32x80 S256x80 [1] [0] [0] [1] [] []
  dot_S256x64_S64x16_S256x16_1_0_0_1_n_n_wf : DotDims.WF S256x64 S64x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S262144x32.size a
  hwx0_0 : ∀ i : grid0.Coords, EltTy.bits .f32 = 32 ∨ (Rect.block (s := S262144x32) S256x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x80.size a ≤ S32x80.size a
  hwx0_1 : ∀ i : grid0.Coords, EltTy.bits .f32 = 32 ∨ (Rect.block (s := S32x80) S32x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x80.size a ≤ S1x80.size a
  hwx0_2 : ∀ i : grid0.Coords, EltTy.bits .f32 = 32 ∨ (Rect.block (s := S1x80) S1x80.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S262144x64.size a
  hwx0_5 : ∀ i : grid0.Coords, EltTy.bits .f32 = 32 ∨ (Rect.block (s := S262144x64) S256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x16.size a ≤ S262144x16.size a
  hwx0_6 : ∀ i : grid0.Coords, EltTy.bits .f32 = 32 ∨ (Rect.block (s := S262144x16) S256x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x16.size a ≤ S262144x16.size a
  hwx0_7 : ∀ i : grid0.Coords, EltTy.bits .f32 = 32 ∨ (Rect.block (s := S262144x16) S256x16.size (cc0_transform_7 i) (hinb0_7 i)).WholeWords (EltTy.packing .f32)

variable [Facts₀]

def dot_S256x32_S32x80_S256x80_1_0_0_1_n_n : DotDims S256x32 S32x80 S256x80 where
  lhsContracting := [1]
  rhsContracting := [0]
  lhsNonContracting := [0]
  rhsNonContracting := [1]
  lhsBatch := []
  rhsBatch := []
  wf := dot_S256x32_S32x80_S256x80_1_0_0_1_n_n_wf
def dot_S256x64_S64x16_S256x16_1_0_0_1_n_n : DotDims S256x64 S64x16 S256x16 where
  lhsContracting := [1]
  rhsContracting := [0]
  lhsNonContracting := [0]
  rhsNonContracting := [1]
  lhsBatch := []
  rhsBatch := []
  wf := dot_S256x64_S64x16_S256x16_1_0_0_1_n_n_wf

abbrev win0_0 : Pipeline.Window sig grid0 :=
  Pipeline.Window.ofSpec (Memref.whole main_arg0) S256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x80.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S256x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S256x16.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S256x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.SpikeNet.lean ====
/-
  The network both programs compute, one row of the input at a time, and the two programs' vector operations on a
  block of rows read at an index of the block.

  For a row `x` of 32 inputs:
    a(q)    = Σ_k x(k) · w13(k, q) + b13(q)              the fused first layer, 80 columns;
    s1(j)   = [a(j) > 0]                                  the 64 interneuron spikes (columns 0 … 63 of `a`);
    h(o)    = Σ_j s1(j) · w2n(j, o) + b2n(o)              the second layer on those spikes, 16 columns;
    s2(o)   = [h(o) > 0]                                  the second layer's spikes;
    out(o)  = [h(o) + a(64 + o) > 0]                      the output spikes (columns 64 … 79 of `a` added).
  Here `[c]` is 1 when `c` holds and 0 otherwise. Every value of a row depends on that row of the input alone, which
  is why the result does not depend on how the rows are cut into blocks.

  A block of `R` rows goes through the same operations as vectors: a matrix product into a zero accumulator plus a
  bias row broadcast down the rows, column slices, a comparison with zero turned into a float either by selecting
  between the constants one and zero (`thresholdSelect`) or by widening the bit to a word and converting the word
  (`thresholdConvert`), a second matrix product.
  Read at row `p` and column `q` of the block each of these is the row function above at row `p` of the block.
-/
import Idealize.ShloMosaic.PureOps.Ideal.Laws
import Idealize.ShloMosaic.Lib.ValueIdx
import Idealize.ShloMosaic.Lib.Pipeline.Value
import Idealize.ShloMosaic.Lib.IdealHost
import Idealize.ShloMosaic.Lib.KernelVsHost
import proofs.«158934_g2000306523512037_pallasbulk_875_2_alg».proof.Proof.LibContraction

noncomputable section

open scoped BigOperators

namespace Cert.SpikeNet

open Idealize.ShloMosaic Idealize.ShloMosaic.ValueIdx Cert.Lib.Contraction

/-- The matrix shape with `a` rows and `b` columns. -/
abbrev Sh (a b : Nat) : Shape := ⟨2, ![a, b]⟩

/-! ## One row at a time -/

/-- The threshold at zero: one where the value is above zero, zero elsewhere (the two constants as their float words). -/
def gate (v : Ideal .f32) : Ideal .f32 :=
  Scalar.select (FloatOps.cmpf (F := Ideal) .ogt v (Scalar.ofBits (F := Ideal) .f32 0x00000000#32))
    (Scalar.ofBits (F := Ideal) .f32 0x3F800000#32) (Scalar.ofBits (F := Ideal) .f32 0x00000000#32)

/-- Column `j` of the first 64 columns of the fused layer. -/
abbrev lo (j : Fin 64) : Fin 80 := ⟨j.val, by omega⟩
/-- Column `o` of its last 16 columns. -/
abbrev hi (o : Fin 16) : Fin 80 := ⟨o.val + 64, by omega⟩

variable {R : Nat}

/-- The fused first layer at row `r`, column `q`. -/
def affine (x : FVec Ideal (Sh R 32) .f32) (w : FVec Ideal (Sh 32 80) .f32) (b : FVec Ideal (Sh 1 80) .f32)
    (r : Fin R) (q : Fin 80) : EReal :=
  (∑ k : Fin 32, x (ix2 r k) * w (ix2 k q)) + b (ix2 (0 : Fin 1) q)

/-- The interneuron spikes of row `r`. -/
def spike1 (x : FVec Ideal (Sh R 32) .f32) (w : FVec Ideal (Sh 32 80) .f32) (b : FVec Ideal (Sh 1 80) .f32)
    (r : Fin R) (j : Fin 64) : EReal :=
  gate (affine x w b r (lo j))

/-- The second layer on the spikes of row `r`. -/
def affine2 (x : FVec Ideal (Sh R 32) .f32) (w : FVec Ideal (Sh 32 80) .f32) (b : FVec Ideal (Sh 1 80) .f32)
    (w2 : FVec Ideal (Sh 64 16) .f32) (b2 : FVec Ideal (Sh 1 16) .f32) (r : Fin R) (o : Fin 16) : EReal :=
  (∑ j : Fin 64, spike1 x w b r j * w2 (ix2 j o)) + b2 (ix2 (0 : Fin 1) o)

/-- The second layer's spikes of row `r`. -/
def spike2 (x : FVec Ideal (Sh R 32) .f32) (w : FVec Ideal (Sh 32 80) .f32) (b : FVec Ideal (Sh 1 80) .f32)
    (w2 : FVec Ideal (Sh 64 16) .f32) (b2 : FVec Ideal (Sh 1 16) .f32) (r : Fin R) (o : Fin 16) : EReal :=
  gate (affine2 x w b w2 b2 r o)

/-- The output spikes of row `r`: the second layer plus the last 16 columns of the first. -/
def spikeOut (x : FVec Ideal (Sh R 32) .f32) (w : FVec Ideal (Sh 32 80) .f32) (b : FVec Ideal (Sh 1 80) .f32)
    (w2 : FVec Ideal (Sh 64 16) .f32) (b2 : FVec Ideal (Sh 1 16) .f32) (r : Fin R) (o : Fin 16) : EReal :=
  gate (affine2 x w b w2 b2 r o + affine x w b r (hi o))

/-! ## Rows do not mix: a row of a block is that row of the array -/

section Rows
variable {R' : Nat} (x : FVec Ideal (Sh R 32) .f32) (x' : FVec Ideal (Sh R' 32) .f32)
  (w : FVec Ideal (Sh 32 80) .f32) (b : FVec Ideal (Sh 1 80) .f32)
  (w2 : FVec Ideal (Sh 64 16) .f32) (b2 : FVec Ideal (Sh 1 16) .f32)
  (r : Fin R) (r' : Fin R') (hrow : ∀ k : Fin 32, x (ix2 r k) = x' (ix2 r' k))
include hrow

theorem affine_row (q : Fin 80) : affine x w b r q = affine x' w b r' q := by
  unfold affine
  rw [Finset.sum_congr rfl fun k _ => by rw [hrow k]]

theorem spike1_row (j : Fin 64) : spike1 x w b r j = spike1 x' w b r' j := by
  unfold spike1
  rw [affine_row x x' w b r r' hrow]

theorem affine2_row (o : Fin 16) : affine2 x w b w2 b2 r o = affine2 x' w b w2 b2 r' o := by
  unfold affine2
  rw [Finset.sum_congr rfl fun j _ => by rw [spike1_row x x' w b r r' hrow j]]

theorem spike2_row (o : Fin 16) : spike2 x w b w2 b2 r o = spike2 x' w b w2 b2 r' o := by
  unfold spike2
  rw [affine2_row x x' w b w2 b2 r r' hrow]

theorem spikeOut_row (o : Fin 16) : spikeOut x w b w2 b2 r o = spikeOut x' w b w2 b2 r' o := by
  unfold spikeOut
  rw [affine2_row x x' w b w2 b2 r r' hrow, affine_row x x' w b r r' hrow]

end Rows

/-! ## The comparison as a float: two spellings of the threshold -/

/-- The comparison with zero turned into a float by selecting between the splats of one and zero. -/
def thresholdSelect {S : Shape} (h : FVec Ideal S .f32) : FVec Ideal S .f32 :=
  select (cmpf .ogt h (broadcast S (Scalar.ofBits (F := Ideal) .f32 0x00000000#32)))
    (broadcast S (Scalar.ofBits (F := Ideal) .f32 0x3F800000#32)) (broadcast S (Scalar.ofBits (F := Ideal) .f32 0x00000000#32))

/-- It is the threshold, element by element. -/
theorem thresholdSelect_apply {S : Shape} (h : FVec Ideal S .f32) (i : S.Idx) : thresholdSelect h i = gate (h i) := rfl

/-- A bit widened to a word and converted, against the selection between one and zero on that bit. -/
theorem bit_to_float (c : BitVec 1) :
    (Scalar.sitofp (F := Ideal) .f32 (c.setWidth 32) : Ideal .f32)
      = Scalar.select c (Scalar.ofBits (F := Ideal) .f32 0x3F800000#32) (Scalar.ofBits (F := Ideal) .f32 0x00000000#32) := by
  show ((((c.setWidth 32).toInt : ℤ) : ℝ) : EReal) = Scalar.select c (Ideal.ofBits .f32 0x3F800000#32) (Ideal.ofBits .f32 0x00000000#32)
  rw [toInt_setWidth_bit, Ideal.ofBits_one_f32, Ideal.ofBits_zero_f32]
  rcases BitVec.eq_zero_or_eq_one c with e | e
  · rw [e, select_zero]; norm_num
  · rw [e, select_one]; norm_num

/-- The comparison with zero turned into a float by widening its bit to a word and converting the word. -/
def thresholdConvert {S : Shape} (hlt : 1 < 32) (h : FVec Ideal S .f32) : FVec Ideal S .f32 :=
  sitofp .f32 (extui 32 (cmpf .ogt h (broadcast S (Scalar.ofBits (F := Ideal) .f32 0x00000000#32))) hlt)

/-- It is the threshold too, element by element. -/
theorem thresholdConvert_apply {S : Shape} (hlt : 1 < 32) (h : FVec Ideal S .f32) (i : S.Idx) :
    thresholdConvert hlt h i = gate (h i) :=
  bit_to_float _

/-! ## A block of rows through the vector operations, read at an index -/

section Block

/-- A product of a block of rows with a matrix, into a zero accumulator, plus a bias row laid along every row: at
    row `p`, column `q` the sum over the contracted axis of the row's entries times the matrix's column, plus the bias
    there. Stated for any inner extent `K` and width `C`, the dimension numbers those of a plain product. -/
theorem product_bias_apply {K C : Nat} (d : DotDims (Sh R K) (Sh K C) (Sh R C))
    (hc : d.lhsContracting = [(1 : Fin 2)]) (hc' : d.rhsContracting = [(0 : Fin 2)])
    (hn : d.lhsNonContracting = [(0 : Fin 2)]) (hn' : d.rhsNonContracting = [(1 : Fin 2)])
    (hb : d.lhsBatch = []) (hb' : d.rhsBatch = [])
    (hB : (Sh 1 C).Broadcasts (Sh R C))
    (a : FVec Ideal (Sh R K) .f32) (m : FVec Ideal (Sh K C) .f32) (bias : FVec Ideal (Sh 1 C) .f32)
    (p : Fin R) (q : Fin C) :
    (addf (matmul d none a m (constant (Sh R C) .f32 0x00000000#32)) (broadcastTo (Sh R C) bias hB) : FVec Ideal (Sh R C) .f32) (ix2 p q)
      = (∑ k : Fin K, a (ix2 p k) * m (ix2 k q)) + bias (ix2 (0 : Fin 1) q) := by
  show FloatOps.matmul d none a m (constant (Sh R C) .f32 0x00000000#32) (ix2 p q) + broadcastTo (Sh R C) bias hB (ix2 p q) = _
  rw [Ideal.matmul_constant_zero_apply, sum_contr d hc K rfl]
  have hl : ∀ k : Fin K, d.lhsIdx (ix2 p q) ((contrFin d hc K rfl).symm k) = ix2 p k := fun k =>
    funext fun ax => Fin.ext (match ax with
      | ⟨0, _⟩ => lhs_free d hb hn (ix2 p q) _ Nat.zero_lt_two
      | ⟨1, _⟩ => lhs_contracted d hc K rfl (ix2 p q) k)
  have hr : ∀ k : Fin K, d.rhsIdx (ix2 p q) ((contrFin d hc K rfl).symm k) = ix2 k q := fun k =>
    funext fun ax => Fin.ext (match ax with
      | ⟨0, _⟩ => rhs_contracted d hc hc' K rfl (ix2 p q) k
      | ⟨1, _⟩ => rhs_free d hb hb' hn hn' (ix2 p q) _ Nat.one_lt_two)
  have hbias : broadcastTo (Sh R C) bias hB (ix2 p q) = bias (ix2 (0 : Fin 1) q) :=
    broadcastTo_apply bias hB (ix2 p q) (ix2 (0 : Fin 1) q) (fun ax => match ax with
      | ⟨0, _⟩ => by show (0 : Nat) = if (1 : Nat) = 1 then 0 else _; rw [if_pos rfl]
      | ⟨1, _⟩ => by
          show q.val = if C = 1 then 0 else q.val
          by_cases hC : C = 1
          · rw [if_pos hC]; have := q.isLt; omega
          · rw [if_neg hC])
  rw [hbias]
  congr 1
  exact Finset.sum_congr rfl fun k _ => by rw [hl k, hr k]

/-- The first 64 columns of an 80-column block. -/
theorem slice_lo_apply (hS : (Sh R 80).Slices ![0, 0] (Sh R 64)) (v : FVec Ideal (Sh R 80) .f32) (p : Fin R) (j : Fin 64) :
    extractStridedSlice (Sh R 64) ![0, 0] v hS (ix2 p j) = v (ix2 p (lo j)) :=
  extractStridedSlice_apply ![0, 0] v hS (ix2 p j) (ix2 p (lo j)) (fun ax => match ax with
    | ⟨0, _⟩ => by show p.val = 0 + p.val; omega
    | ⟨1, _⟩ => by show j.val = 0 + j.val; omega)

/-- Its last 16 columns. -/
theorem slice_hi_apply (hS : (Sh R 80).Slices ![0, 64] (Sh R 16)) (v : FVec Ideal (Sh R 80) .f32) (p : Fin R) (o : Fin 16) :
    extractStridedSlice (Sh R 16) ![0, 64] v hS (ix2 p o) = v (ix2 p (hi o)) :=
  extractStridedSlice_apply ![0, 64] v hS (ix2 p o) (ix2 p (hi o)) (fun ax => match ax with
    | ⟨0, _⟩ => by show p.val = 0 + p.val; omega
    | ⟨1, _⟩ => by show o.val + 64 = 64 + o.val; omega)

end Block

/-! ## The three result arrays, and a block's row as a row of the array -/

section Arrays
variable {N : Nat}

/-- The interneuron spikes of every row: the first result. -/
def spikes1 (X : FVec Ideal (Sh N 32) .f32) (w : FVec Ideal (Sh 32 80) .f32) (b : FVec Ideal (Sh 1 80) .f32) :
    FVec Ideal (Sh N 64) .f32 :=
  fun i => spike1 X w b ⟨(i 0).val, idx2_lt0 i⟩ ⟨(i 1).val, idx2_lt1 i⟩

/-- The second layer's spikes of every row: the second result. -/
def spikes2 (X : FVec Ideal (Sh N 32) .f32) (w : FVec Ideal (Sh 32 80) .f32) (b : FVec Ideal (Sh 1 80) .f32)
    (w2 : FVec Ideal (Sh 64 16) .f32) (b2 : FVec Ideal (Sh 1 16) .f32) : FVec Ideal (Sh N 16) .f32 :=
  fun i => spike2 X w b w2 b2 ⟨(i 0).val, idx2_lt0 i⟩ ⟨(i 1).val, idx2_lt1 i⟩

/-- The output spikes of every row: the third result. -/
def spikesOut (X : FVec Ideal (Sh N 32) .f32) (w : FVec Ideal (Sh 32 80) .f32) (b : FVec Ideal (Sh 1 80) .f32)
    (w2 : FVec Ideal (Sh 64 16) .f32) (b2 : FVec Ideal (Sh 1 16) .f32) : FVec Ideal (Sh N 16) .f32 :=
  fun i => spikeOut X w b w2 b2 ⟨(i 0).val, idx2_lt0 i⟩ ⟨(i 1).val, idx2_lt1 i⟩

variable (x0 : FVec Ideal (Sh R 32) .f32) (X : FVec Ideal (Sh N 32) .f32)
  (w : FVec Ideal (Sh 32 80) .f32) (b : FVec Ideal (Sh 1 80) .f32)
  (w2 : FVec Ideal (Sh 64 16) .f32) (b2 : FVec Ideal (Sh 1 16) .f32) (p : Fin R)

/-- Row `p` of a block whose entries are row `i 0` of the array gives the array's first result at `i`. -/
theorem spikes1_of_row (j : Fin 64) (i : (Sh N 64).Idx)
    (hx : ∀ k : Fin 32, x0 (ix2 p k) = X (ix2 ⟨(i 0).val, idx2_lt0 i⟩ k)) (hj : (i 1).val = j.val) :
    spike1 x0 w b p j = spikes1 X w b i := by
  unfold spikes1
  rw [spike1_row x0 X w b p ⟨(i 0).val, idx2_lt0 i⟩ hx j]
  congr 1; exact Fin.ext hj.symm

/-- The same for the second result. -/
theorem spikes2_of_row (o : Fin 16) (i : (Sh N 16).Idx)
    (hx : ∀ k : Fin 32, x0 (ix2 p k) = X (ix2 ⟨(i 0).val, idx2_lt0 i⟩ k)) (ho : (i 1).val = o.val) :
    spike2 x0 w b w2 b2 p o = spikes2 X w b w2 b2 i := by
  unfold spikes2
  rw [spike2_row x0 X w b w2 b2 p ⟨(i 0).val, idx2_lt0 i⟩ hx o]
  congr 1; exact Fin.ext ho.symm

/-- The same for the third result. -/
theorem spikesOut_of_row (o : Fin 16) (i : (Sh N 16).Idx)
    (hx : ∀ k : Fin 32, x0 (ix2 p k) = X (ix2 ⟨(i 0).val, idx2_lt0 i⟩ k)) (ho : (i 1).val = o.val) :
    spikeOut x0 w b w2 b2 p o = spikesOut X w b w2 b2 i := by
  unfold spikesOut
  rw [spikeOut_row x0 X w b w2 b2 p ⟨(i 0).val, idx2_lt0 i⟩ hx o]
  congr 1; exact Fin.ext ho.symm

end Arrays

end Cert.SpikeNet

end
-- ==== Proof.KernelBlocks.lean ====
/-
  The idealized kernel's three result arrays.

  The kernel cuts the 262144 rows into 32 blocks of 8192 and runs the network on each block with the four weight
  arrays whole. Read at row `p`, column `q` of a block, each value the body stores is the row function of
  Proof/SpikeNet.lean at row `p` of the block (`..._at`); row `p` of block `t` is row `8192 · t + p` of the input
  (`xrow`), so what point `t` writes back is block `t` of the whole-array function (`flushed…_eq`); the 32 blocks
  cover every row, so after the run each result array is that function of the argument arrays (`final…`, `run`).
-/
import proofs.«158934_g2000306523512037_pallasbulk_875_2_alg».proof.Proof.Gen.KernelIdeal.Value
import proofs.«158934_g2000306523512037_pallasbulk_875_2_alg».proof.Proof.SpikeNet

noncomputable section

namespace Cert.KernelIdeal.Net

open Cert.KernelIdeal Cert.KernelIdeal.Gen Idealize.ShloMosaic Idealize.ShloMosaic.TcCoe Idealize.SL.Sem
open Idealize.ShloMosaic.ValueIdx Cert.SpikeNet
open Idealize.ShloMosaic.Pipeline (Dat)

/-! ## The body's stored values at an index of the block -/

section Payloads
variable (x0 : Vec Ideal S8192x32 .f32) (x1 : Vec Ideal S32x80 .f32) (x2 : Vec Ideal S1x80 .f32)
  (x3 : Vec Ideal S64x16 .f32) (x4 : Vec Ideal S1x16 .f32)

/-- The fused first layer of the block. -/
theorem affine_at (p : Fin 8192) (q : Fin 80) : k0_pay1 x0 x1 x2 (ix2 p q) = affine (R := 8192) x0 x1 x2 p q :=
  product_bias_apply (R := 8192) dot_S8192x32_S32x80_S8192x80_1_0_0_1_n_n rfl rfl rfl rfl rfl rfl
    broadcasts_S1x80_S8192x80 x0 x1 x2 p q

/-- Its first 64 columns. -/
theorem first64_at (p : Fin 8192) (j : Fin 64) :
    (extractStridedSlice S8192x64 ![0, 0] (k0_pay1 x0 x1 x2) slices_S8192x80_o0_0_S8192x64) (ix2 p j)
      = affine (R := 8192) x0 x1 x2 p (lo j) :=
  (slice_lo_apply (R := 8192) slices_S8192x80_o0_0_S8192x64 (k0_pay1 x0 x1 x2) p j).trans (affine_at x0 x1 x2 p (lo j))

/-- Its last 16 columns. -/
theorem last16_at (p : Fin 8192) (o : Fin 16) :
    (extractStridedSlice S8192x16 ![0, 64] (k0_pay1 x0 x1 x2) slices_S8192x80_o0_64_S8192x16) (ix2 p o)
      = affine (R := 8192) x0 x1 x2 p (hi o) :=
  (slice_hi_apply (R := 8192) slices_S8192x80_o0_64_S8192x16 (k0_pay1 x0 x1 x2) p o).trans (affine_at x0 x1 x2 p (hi o))

/-- The first stored value as the body's vector operations: the threshold of the first 64 columns. -/
theorem stored1_eq : k0_pay2 x0 x1 x2
    = thresholdSelect
        (extractStridedSlice S8192x64 ![0, 0] (k0_pay1 x0 x1 x2) slices_S8192x80_o0_0_S8192x64) := rfl

/-- The interneuron spikes of the block: the first stored value. -/
theorem spike1_at (p : Fin 8192) (j : Fin 64) : k0_pay2 x0 x1 x2 (ix2 p j) = spike1 (R := 8192) x0 x1 x2 p j :=
  (congrFun (stored1_eq x0 x1 x2) (ix2 p j)).trans
    ((thresholdSelect_apply _ (ix2 p j)).trans (congrArg gate (first64_at x0 x1 x2 p j)))

/-- The second layer of the block: a product with the spikes, which are the first stored value. -/
theorem affine2_at (p : Fin 8192) (o : Fin 16) :
    k0_pay3 x0 x1 x2 x3 x4 (ix2 p o) = affine2 (R := 8192) x0 x1 x2 x3 x4 p o :=
  (product_bias_apply (R := 8192) dot_S8192x64_S64x16_S8192x16_1_0_0_1_n_n rfl rfl rfl rfl rfl rfl
    broadcasts_S1x16_S8192x16 (k0_pay2 x0 x1 x2) x3 x4 p o).trans
    (congrArg (· + x4 (ix2 (0 : Fin 1) o))
      (Finset.sum_congr rfl fun j _ => congrArg (· * x3 (ix2 j o)) (spike1_at x0 x1 x2 p j)))

/-- The second stored value as the body's vector operations: the threshold of the second layer. -/
theorem stored2_eq : k0_pay4 x0 x1 x2 x3 x4
    = thresholdSelect (k0_pay3 x0 x1 x2 x3 x4) := rfl

/-- The second layer's spikes of the block: the second stored value. -/
theorem spike2_at (p : Fin 8192) (o : Fin 16) :
    k0_pay4 x0 x1 x2 x3 x4 (ix2 p o) = spike2 (R := 8192) x0 x1 x2 x3 x4 p o :=
  (congrFun (stored2_eq x0 x1 x2 x3 x4) (ix2 p o)).trans
    ((thresholdSelect_apply _ (ix2 p o)).trans (congrArg gate (affine2_at x0 x1 x2 x3 x4 p o)))

/-- The third stored value as the body's vector operations: the threshold of the second layer plus the last 16 columns
    of the first. -/
theorem stored3_eq : k0_pay5 x0 x1 x2 x3 x4
    = thresholdSelect
        (addf (k0_pay3 x0 x1 x2 x3 x4)
          (extractStridedSlice S8192x16 ![0, 64] (k0_pay1 x0 x1 x2) slices_S8192x80_o0_64_S8192x16)) := rfl

/-- The sum under the third threshold, at an index of the block. -/
theorem sum_at (p : Fin 8192) (o : Fin 16) :
    (addf (k0_pay3 x0 x1 x2 x3 x4)
        (extractStridedSlice S8192x16 ![0, 64] (k0_pay1 x0 x1 x2) slices_S8192x80_o0_64_S8192x16)) (ix2 p o)
      = affine2 (R := 8192) x0 x1 x2 x3 x4 p o + affine (R := 8192) x0 x1 x2 p (hi o) :=
  congrArg₂ (· + ·) (affine2_at x0 x1 x2 x3 x4 p o) (last16_at x0 x1 x2 p o)

/-- The output spikes of the block: the third stored value. -/
theorem spikeOut_at (p : Fin 8192) (o : Fin 16) :
    k0_pay5 x0 x1 x2 x3 x4 (ix2 p o) = spikeOut (R := 8192) x0 x1 x2 x3 x4 p o :=
  (congrFun (stored3_eq x0 x1 x2 x3 x4) (ix2 p o)).trans
    ((thresholdSelect_apply _ (ix2 p o)).trans (congrArg gate (sum_at x0 x1 x2 x3 x4 p o)))

end Payloads

/-! ## From blocks to arrays -/

variable (m : (ℓ : Loc nD τ sig) → Buf (Elt Ideal) ℓ) (ρ : Dev nD → PrngReg)

/-- The loads and stores of the body are at the origin of whole buffers. -/
theorem origin : (![0, 0] : Fin 2 → Nat) = fun _ => 0 := funext fun a => by fin_cases a <;> rfl

/-- The printed index maps over the 32 grid points: the input's window and the three results' are at row block `t`,
    column block 0; the four weight windows stay at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of the input's block at point `t` is row `8192 · t + p` of the input. -/
theorem xrow (c : Dev nD) (t : Fin cfg0.N) (p : Fin 8192) (k : Fin 32) (r : Fin 262144)
    (hr : r.val = t.val * 8192 + p.val) :
    (iblk m c 0 t : Vec Ideal S8192x32 .f32) (ix2 p k) = (V m c main_arg0 : Vec Ideal S262144x32 .f32) (ix2 r k) := by
  obtain ⟨e0, e1, -⟩ := index_facts t
  show V m c main_arg0 (((cfg0.win 0).blk t).view.emb (ix2 p k)) = _
  congr 1; funext a; apply Fin.ext
  match a with
  | ⟨0, _⟩ => show win0_0.index t (0 : Fin 2) * 8192 + 1 * p.val = r.val; omega
  | ⟨1, _⟩ => show win0_0.index t (1 : Fin 2) * 32 + 1 * k.val = k.val; omega

/-- The first layer's weights are staged whole at every point, -/
theorem wblk1 (c : Dev nD) (t : Fin cfg0.N) : (iblk m c 1 t : Vec Ideal S32x80 .f32) = V m c main_arg1 := by
  obtain ⟨-, -, e0, e1, -⟩ := index_facts t
  funext y
  show V m c main_arg1 (((cfg0.win 1).blk t).view.emb y) = V m c main_arg1 y
  congr 1; funext a; apply Fin.ext
  match a with
  | ⟨0, _⟩ => show win0_1.index t (0 : Fin 2) * 32 + 1 * (y 0).val = (y 0).val; omega
  | ⟨1, _⟩ => show win0_1.index t (1 : Fin 2) * 80 + 1 * (y 1).val = (y 1).val; omega

/-- its bias row, -/
theorem wblk2 (c : Dev nD) (t : Fin cfg0.N) : (iblk m c 2 t : Vec Ideal S1x80 .f32) = V m c main_arg2 := by
  obtain ⟨-, -, -, -, e0, e1, -⟩ := index_facts t
  funext y
  show V m c main_arg2 (((cfg0.win 2).blk t).view.emb y) = V m c main_arg2 y
  congr 1; funext a; apply Fin.ext
  match a with
  | ⟨0, _⟩ => show win0_2.index t (0 : Fin 2) * 1 + 1 * (y 0).val = (y 0).val; omega
  | ⟨1, _⟩ => show win0_2.index t (1 : Fin 2) * 80 + 1 * (y 1).val = (y 1).val; omega

/-- the second layer's weights, -/
theorem wblk3 (c : Dev nD) (t : Fin cfg0.N) : (iblk m c 3 t : Vec Ideal S64x16 .f32) = V m c main_arg3 := by
  obtain ⟨-, -, -, -, -, -, e0, e1, -⟩ := index_facts t
  funext y
  show V m c main_arg3 (((cfg0.win 3).blk t).view.emb y) = V m c main_arg3 y
  congr 1; funext a; apply Fin.ext
  match a with
  | ⟨0, _⟩ => show win0_3.index t (0 : Fin 2) * 64 + 1 * (y 0).val = (y 0).val; omega
  | ⟨1, _⟩ => show win0_3.index t (1 : Fin 2) * 16 + 1 * (y 1).val = (y 1).val; omega

/-- and its bias row. -/
theorem wblk4 (c : Dev nD) (t : Fin cfg0.N) : (iblk m c 4 t : Vec Ideal S1x16 .f32) = V m c main_arg4 := by
  obtain ⟨-, -, -, -, -, -, -, -, e0, e1, -⟩ := index_facts t
  funext y
  show V m c main_arg4 (((cfg0.win 4).blk t).view.emb y) = V m c main_arg4 y
  congr 1; funext a; apply Fin.ext
  match a with
  | ⟨0, _⟩ => show win0_4.index t (0 : Fin 2) * 1 + 1 * (y 0).val = (y 0).val; omega
  | ⟨1, _⟩ => show win0_4.index t (1 : Fin 2) * 16 + 1 * (y 1).val = (y 1).val; omega

/-- What point `t` writes back to the first result is block `t` of the interneuron spikes of the whole input. -/
theorem flushed5_eq (c : Dev nD) (t : Fin cfg0.N) :
    (dats m 0 c).flushed 5 t = ((cfg0.win 5).blk t).view.read (Elt Ideal)
      (spikes1 (N := 262144) (V m c main_arg0) (V m c main_arg1) (V m c main_arg2)) := by
  rw [Value.flushed5]
  unfold out0_5
  rw [View.canon_unit_zero origin]
  simp only [View.ld_unit_zero (S := S8192x32) origin, View.ld_unit_zero (S := S32x80) origin,
    View.ld_unit_zero (S := S1x80) origin]
  rw [wblk1, wblk2]
  obtain ⟨-, -, -, -, -, -, -, -, -, -, e0, e1, -⟩ := index_facts t
  funext y
  show k0_pay2 (iblk m c 0 t) (V m c main_arg1) (V m c main_arg2) y
    = spikes1 (N := 262144) (V m c main_arg0) (V m c main_arg1) (V m c main_arg2) (((cfg0.win 5).blk t).view.emb y)
  have hy0 : (y 0).val < 8192 := (y 0).isLt
  have hy1 : (y 1).val < 64 := (y 1).isLt
  refine (congrArg (k0_pay2 (iblk m c 0 t) (V m c main_arg1) (V m c main_arg2)) (eq_ix2 (n0 := 8192) (n1 := 64) y)).trans ?_
  refine (spike1_at _ _ _ (y 0) (y 1)).trans ?_
  refine spikes1_of_row (R := 8192) (N := 262144) _ _ _ _ (y 0) (y 1) _ (fun k => xrow m c t (y 0) k _ ?_) ?_
  · show win0_5.index t (0 : Fin 2) * 8192 + 1 * (y 0).val = t.val * 8192 + (y 0).val; omega
  · show win0_5.index t (1 : Fin 2) * 64 + 1 * (y 1).val = (y 1).val; omega

/-- What point `t` writes back to the second result is block `t` of the second layer's spikes of the whole input. -/
theorem flushed6_eq (c : Dev nD) (t : Fin cfg0.N) :
    (dats m 0 c).flushed 6 t = ((cfg0.win 6).blk t).view.read (Elt Ideal)
      (spikes2 (N := 262144) (V m c main_arg0) (V m c main_arg1) (V m c main_arg2) (V m c main_arg3) (V m c main_arg4)) := by
  rw [Value.flushed6]
  unfold out0_6
  rw [View.canon_unit_zero origin]
  simp only [View.ld_unit_zero (S := S8192x32) origin, View.ld_unit_zero (S := S32x80) origin,
    View.ld_unit_zero (S := S1x80) origin, View.ld_unit_zero (S := S64x16) origin, View.ld_unit_zero (S := S1x16) origin]
  rw [wblk1, wblk2, wblk3, wblk4]
  obtain ⟨-, -, -, -, -, -, -, -, -, -, -, -, e0, e1, -⟩ := index_facts t
  funext y
  show k0_pay4 (iblk m c 0 t) (V m c main_arg1) (V m c main_arg2) (V m c main_arg3) (V m c main_arg4) y
    = spikes2 (N := 262144) (V m c main_arg0) (V m c main_arg1) (V m c main_arg2) (V m c main_arg3) (V m c main_arg4)
        (((cfg0.win 6).blk t).view.emb y)
  have hy0 : (y 0).val < 8192 := (y 0).isLt
  have hy1 : (y 1).val < 16 := (y 1).isLt
  refine (congrArg (k0_pay4 (iblk m c 0 t) (V m c main_arg1) (V m c main_arg2) (V m c main_arg3) (V m c main_arg4))
    (eq_ix2 (n0 := 8192) (n1 := 16) y)).trans ?_
  refine (spike2_at _ _ _ _ _ (y 0) (y 1)).trans ?_
  refine spikes2_of_row (R := 8192) (N := 262144) _ _ _ _ _ _ (y 0) (y 1) _ (fun k => xrow m c t (y 0) k _ ?_) ?_
  · show win0_6.index t (0 : Fin 2) * 8192 + 1 * (y 0).val = t.val * 8192 + (y 0).val; omega
  · show win0_6.index t (1 : Fin 2) * 16 + 1 * (y 1).val = (y 1).val; omega

/-- What point `t` writes back to the third result is block `t` of the output spikes of the whole input. -/
theorem flushed7_eq (c : Dev nD) (t : Fin cfg0.N) :
    (dats m 0 c).flushed 7 t = ((cfg0.win 7).blk t).view.read (Elt Ideal)
      (spikesOut (N := 262144) (V m c main_arg0) (V m c main_arg1) (V m c main_arg2) (V m c main_arg3) (V m c main_arg4)) := by
  rw [Value.flushed7]
  unfold out0_7
  rw [View.canon_unit_zero origin]
  simp only [View.ld_unit_zero (S := S8192x32) origin, View.ld_unit_zero (S := S32x80) origin,
    View.ld_unit_zero (S := S1x80) origin, View.ld_unit_zero (S := S64x16) origin, View.ld_unit_zero (S := S1x16) origin]
  rw [wblk1, wblk2, wblk3, wblk4]
  obtain ⟨-, -, -, -, -, -, -, -, -, -, -, -, -, -, e0, e1⟩ := index_facts t
  funext y
  show k0_pay5 (iblk m c 0 t) (V m c main_arg1) (V m c main_arg2) (V m c main_arg3) (V m c main_arg4) y
    = spikesOut (N := 262144) (V m c main_arg0) (V m c main_arg1) (V m c main_arg2) (V m c main_arg3) (V m c main_arg4)
        (((cfg0.win 7).blk t).view.emb y)
  have hy0 : (y 0).val < 8192 := (y 0).isLt
  have hy1 : (y 1).val < 16 := (y 1).isLt
  refine (congrArg (k0_pay5 (iblk m c 0 t) (V m c main_arg1) (V m c main_arg2) (V m c main_arg3) (V m c main_arg4))
    (eq_ix2 (n0 := 8192) (n1 := 16) y)).trans ?_
  refine (spikeOut_at _ _ _ _ _ (y 0) (y 1)).trans ?_
  refine spikesOut_of_row (R := 8192) (N := 262144) _ _ _ _ _ _ (y 0) (y 1) _ (fun k => xrow m c t (y 0) k _ ?_) ?_
  · show win0_7.index t (0 : Fin 2) * 8192 + 1 * (y 0).val = t.val * 8192 + (y 0).val; omega
  · show win0_7.index t (1 : Fin 2) * 16 + 1 * (y 1).val = (y 1).val; omega

/-- The point whose blocks hold row `r`: the row's block number. -/
def pointOf (r : Nat) (hr : r < 262144) : Fin cfg0.N := ⟨r / 8192, by rw [show cfg0.N = 32 from N_0]; omega⟩

/-- Every index of the first result is in the block of its row's point. -/
theorem cover5 (i : S262144x64.Idx) :
    ∃ t : Fin cfg0.N, (cfg0.win 5).flush t = true ∧ i ∈ ((cfg0.win 5).blk t).view.set := by
  have hi0 : (i 0).val < 262144 := (i 0).isLt
  have hi1 : (i 1).val < 64 := (i 1).isLt
  refine ⟨pointOf (i 0).val hi0, flush0_5 _, ?_⟩
  obtain ⟨-, -, -, -, -, -, -, -, -, -, e0, e1, -⟩ := index_facts (pointOf (i 0).val hi0)
  have ht : (pointOf (i 0).val hi0).val = (i 0).val / 8192 := rfl
  show i ∈ ((View.whole main_v0_0).slice (win0_5.rect (pointOf (i 0).val hi0))).set
  rw [View.set_slice_whole, Rect.mem_set_unit]
  intro a
  match a with
  | ⟨0, _⟩ =>
      show win0_5.index (pointOf (i 0).val hi0) (0 : Fin 2) * 8192 ≤ (i 0).val
        ∧ (i 0).val < win0_5.index (pointOf (i 0).val hi0) (0 : Fin 2) * 8192 + 8192
      omega
  | ⟨1, _⟩ =>
      show win0_5.index (pointOf (i 0).val hi0) (1 : Fin 2) * 64 ≤ (i 1).val
        ∧ (i 1).val < win0_5.index (pointOf (i 0).val hi0) (1 : Fin 2) * 64 + 64
      omega

/-- The same for the second result, -/
theorem cover6 (i : S262144x16.Idx) :
    ∃ t : Fin cfg0.N, (cfg0.win 6).flush t = true ∧ i ∈ ((cfg0.win 6).blk t).view.set := by
  have hi0 : (i 0).val < 262144 := (i 0).isLt
  have hi1 : (i 1).val < 16 := (i 1).isLt
  refine ⟨pointOf (i 0).val hi0, flush0_6 _, ?_⟩
  obtain ⟨-, -, -, -, -, -, -, -, -, -, -, -, e0, e1, -⟩ := index_facts (pointOf (i 0).val hi0)
  have ht : (pointOf (i 0).val hi0).val = (i 0).val / 8192 := rfl
  show i ∈ ((View.whole main_v0_1).slice (win0_6.rect (pointOf (i 0).val hi0))).set
  rw [View.set_slice_whole, Rect.mem_set_unit]
  intro a
  match a with
  | ⟨0, _⟩ =>
      show win0_6.index (pointOf (i 0).val hi0) (0 : Fin 2) * 8192 ≤ (i 0).val
        ∧ (i 0).val < win0_6.index (pointOf (i 0).val hi0) (0 : Fin 2) * 8192 + 8192
      omega
  | ⟨1, _⟩ =>
      show win0_6.index (pointOf (i 0).val hi0) (1 : Fin 2) * 16 ≤ (i 1).val
        ∧ (i 1).val < win0_6.index (pointOf (i 0).val hi0) (1 : Fin 2) * 16 + 16
      omega

/-- and for the third. -/
theorem cover7 (i : S262144x16.Idx) :
    ∃ t : Fin cfg0.N, (cfg0.win 7).flush t = true ∧ i ∈ ((cfg0.win 7).blk t).view.set := by
  have hi0 : (i 0).val < 262144 := (i 0).isLt
  have hi1 : (i 1).val < 16 := (i 1).isLt
  refine ⟨pointOf (i 0).val hi0, flush0_7 _, ?_⟩
  obtain ⟨-, -, -, -, -, -, -, -, -, -, -, -, -, -, e0, e1⟩ := index_facts (pointOf (i 0).val hi0)
  have ht : (pointOf (i 0).val hi0).val = (i 0).val / 8192 := rfl
  show i ∈ ((View.whole main_v0_2).slice (win0_7.rect (pointOf (i 0).val hi0))).set
  rw [View.set_slice_whole, Rect.mem_set_unit]
  intro a
  match a with
  | ⟨0, _⟩ =>
      show win0_7.index (pointOf (i 0).val hi0) (0 : Fin 2) * 8192 ≤ (i 0).val
        ∧ (i 0).val < win0_7.index (pointOf (i 0).val hi0) (0 : Fin 2) * 8192 + 8192
      omega
  | ⟨1, _⟩ =>
      show win0_7.index (pointOf (i 0).val hi0) (1 : Fin 2) * 16 ≤ (i 1).val
        ∧ (i 1).val < win0_7.index (pointOf (i 0).val hi0) (1 : Fin 2) * 16 + 16
      omega

/-- After the run the first result array is the interneuron spikes of the argument arrays, -/
theorem final5 (c : Dev nD) : (dats m 0 c).arrAt 5 cfg0.N
    = spikes1 (N := 262144) (m ((c : Thread nD τ).loc main_arg0)) (m ((c : Thread nD τ).loc main_arg1))
        (m ((c : Thread nD τ).loc main_arg2)) :=
  (dats m 0 c).arrAt_eq_of_cover 5 _ (fun t _ => flushed5_eq m c t) cover5

/-- the second the second layer's spikes, -/
theorem final6 (c : Dev nD) : (dats m 0 c).arrAt 6 cfg0.N
    = spikes2 (N := 262144) (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 6 _ (fun t _ => flushed6_eq m c t) cover6

/-- and the third the output spikes. -/
theorem final7 (c : Dev nD) : (dats m 0 c).arrAt 7 cfg0.N
    = spikesOut (N := 262144) (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 7 _ (fun t _ => flushed7_eq m c t) cover7

/-- The run: every weakly fair execution ends with the three result arrays at the network's three functions of the
    argument arrays, and the arguments as they were. -/
theorem run : θ_run defs (onTc (τ := τ) (main (F := Ideal))) ⟨m, fun _ => 0, ρ⟩ fun r => ∀ c : Dev nD,
      r.2.mem ((c : Thread nD τ).loc main_v0_0)
        = spikes1 (N := 262144) (m ((c : Thread nD τ).loc main_arg0)) (m ((c : Thread nD τ).loc main_arg1))
            (m ((c : Thread nD τ).loc main_arg2))
      ∧ r.2.mem ((c : Thread nD τ).loc main_v0_1)
        = spikes2 (N := 262144) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_v0_2)
        = spikesOut (N := 262144) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c),
      (h c).2.2.1.trans (final7 m c), (h c).2.2.2⟩)
    (Value.run_blocks m ρ)

end Cert.KernelIdeal.Net

end
-- ==== Proof.ReferenceBlocks.lean ====
/-
  The idealized reference's three result arrays.

  The reference cuts the 262144 rows into 1024 blocks of 256 and runs the network on each block with the four weight
  arrays whole. Read at row `p`, column `q` of a block, each value the body stores is the row function of
  Proof/SpikeNet.lean at row `p` of the block (`..._at`); row `p` of block `t` is row `256 · t + p` of the input
  (`xrow`), so what point `t` writes back is block `t` of the whole-array function (`flushed…_eq`); the 1024 blocks
  cover every row, so after the run each result array is that function of the argument arrays (`final…`, `run`).
-/
import proofs.«158934_g2000306523512037_pallasbulk_875_2_alg».proof.Proof.Gen.ReferenceIdeal.Value
import proofs.«158934_g2000306523512037_pallasbulk_875_2_alg».proof.Proof.SpikeNet

noncomputable section

namespace Cert.ReferenceIdeal.Net

open Cert.ReferenceIdeal Cert.ReferenceIdeal.Gen Idealize.ShloMosaic Idealize.ShloMosaic.TcCoe Idealize.SL.Sem
open Idealize.ShloMosaic.ValueIdx Cert.SpikeNet
open Idealize.ShloMosaic.Pipeline (Dat)

/-! ## The body's stored values at an index of the block -/

section Payloads
variable (x0 : Vec Ideal S256x32 .f32) (x1 : Vec Ideal S32x80 .f32) (x2 : Vec Ideal S1x80 .f32)
  (x3 : Vec Ideal S64x16 .f32) (x4 : Vec Ideal S1x16 .f32)

/-- The fused first layer of the block. -/
theorem affine_at (p : Fin 256) (q : Fin 80) : k0_pay1 x0 x1 x2 (ix2 p q) = affine (R := 256) x0 x1 x2 p q :=
  product_bias_apply (R := 256) dot_S256x32_S32x80_S256x80_1_0_0_1_n_n rfl rfl rfl rfl rfl rfl
    broadcasts_S1x80_S256x80 x0 x1 x2 p q

/-- Its first 64 columns. -/
theorem first64_at (p : Fin 256) (j : Fin 64) :
    (extractStridedSlice S256x64 ![0, 0] (k0_pay1 x0 x1 x2) slices_S256x80_o0_0_S256x64) (ix2 p j)
      = affine (R := 256) x0 x1 x2 p (lo j) :=
  (slice_lo_apply (R := 256) slices_S256x80_o0_0_S256x64 (k0_pay1 x0 x1 x2) p j).trans (affine_at x0 x1 x2 p (lo j))

/-- Its last 16 columns. -/
theorem last16_at (p : Fin 256) (o : Fin 16) :
    (extractStridedSlice S256x16 ![0, 64] (k0_pay1 x0 x1 x2) slices_S256x80_o0_64_S256x16) (ix2 p o)
      = affine (R := 256) x0 x1 x2 p (hi o) :=
  (slice_hi_apply (R := 256) slices_S256x80_o0_64_S256x16 (k0_pay1 x0 x1 x2) p o).trans (affine_at x0 x1 x2 p (hi o))

/-- The first stored value as the body's vector operations: the threshold of the first 64 columns. -/
theorem stored1_eq : k0_pay2 x0 x1 x2
    = thresholdConvert natLt_1_32
        (extractStridedSlice S256x64 ![0, 0] (k0_pay1 x0 x1 x2) slices_S256x80_o0_0_S256x64) := rfl

/-- The interneuron spikes of the block: the first stored value. -/
theorem spike1_at (p : Fin 256) (j : Fin 64) : k0_pay2 x0 x1 x2 (ix2 p j) = spike1 (R := 256) x0 x1 x2 p j :=
  (congrFun (stored1_eq x0 x1 x2) (ix2 p j)).trans
    ((thresholdConvert_apply natLt_1_32 _ (ix2 p j)).trans (congrArg gate (first64_at x0 x1 x2 p j)))

/-- The second layer of the block: a product with the spikes, which are the first stored value. -/
theorem affine2_at (p : Fin 256) (o : Fin 16) :
    k0_pay3 x0 x1 x2 x3 x4 (ix2 p o) = affine2 (R := 256) x0 x1 x2 x3 x4 p o :=
  (product_bias_apply (R := 256) dot_S256x64_S64x16_S256x16_1_0_0_1_n_n rfl rfl rfl rfl rfl rfl
    broadcasts_S1x16_S256x16 (k0_pay2 x0 x1 x2) x3 x4 p o).trans
    (congrArg (· + x4 (ix2 (0 : Fin 1) o))
      (Finset.sum_congr rfl fun j _ => congrArg (· * x3 (ix2 j o)) (spike1_at x0 x1 x2 p j)))

/-- The second stored value as the body's vector operations: the threshold of the second layer. -/
theorem stored2_eq : k0_pay4 x0 x1 x2 x3 x4
    = thresholdConvert natLt_1_32 (k0_pay3 x0 x1 x2 x3 x4) := rfl

/-- The second layer's spikes of the block: the second stored value. -/
theorem spike2_at (p : Fin 256) (o : Fin 16) :
    k0_pay4 x0 x1 x2 x3 x4 (ix2 p o) = spike2 (R := 256) x0 x1 x2 x3 x4 p o :=
  (congrFun (stored2_eq x0 x1 x2 x3 x4) (ix2 p o)).trans
    ((thresholdConvert_apply natLt_1_32 _ (ix2 p o)).trans (congrArg gate (affine2_at x0 x1 x2 x3 x4 p o)))

/-- The third stored value as the body's vector operations: the threshold of the second layer plus the last 16 columns
    of the first. -/
theorem stored3_eq : k0_pay5 x0 x1 x2 x3 x4
    = thresholdConvert natLt_1_32
        (addf (k0_pay3 x0 x1 x2 x3 x4)
          (extractStridedSlice S256x16 ![0, 64] (k0_pay1 x0 x1 x2) slices_S256x80_o0_64_S256x16)) := rfl

/-- The sum under the third threshold, at an index of the block. -/
theorem sum_at (p : Fin 256) (o : Fin 16) :
    (addf (k0_pay3 x0 x1 x2 x3 x4)
        (extractStridedSlice S256x16 ![0, 64] (k0_pay1 x0 x1 x2) slices_S256x80_o0_64_S256x16)) (ix2 p o)
      = affine2 (R := 256) x0 x1 x2 x3 x4 p o + affine (R := 256) x0 x1 x2 p (hi o) :=
  congrArg₂ (· + ·) (affine2_at x0 x1 x2 x3 x4 p o) (last16_at x0 x1 x2 p o)

/-- The output spikes of the block: the third stored value. -/
theorem spikeOut_at (p : Fin 256) (o : Fin 16) :
    k0_pay5 x0 x1 x2 x3 x4 (ix2 p o) = spikeOut (R := 256) x0 x1 x2 x3 x4 p o :=
  (congrFun (stored3_eq x0 x1 x2 x3 x4) (ix2 p o)).trans
    ((thresholdConvert_apply natLt_1_32 _ (ix2 p o)).trans (congrArg gate (sum_at x0 x1 x2 x3 x4 p o)))

end Payloads

/-! ## From blocks to arrays -/

variable (m : (ℓ : Loc nD τ sig) → Buf (Elt Ideal) ℓ) (ρ : Dev nD → PrngReg)

/-- The loads and stores of the body are at the origin of whole buffers. -/
theorem origin : (![0, 0] : Fin 2 → Nat) = fun _ => 0 := funext fun a => by fin_cases a <;> rfl

/-- The printed index maps over the 1024 grid points: the input's window and the three results' are at row block `t`,
    column block 0; the four weight windows stay at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of the input's block at point `t` is row `256 · t + p` of the input. -/
theorem xrow (c : Dev nD) (t : Fin cfg0.N) (p : Fin 256) (k : Fin 32) (r : Fin 262144)
    (hr : r.val = t.val * 256 + p.val) :
    (iblk m c 0 t : Vec Ideal S256x32 .f32) (ix2 p k) = (V m c main_arg0 : Vec Ideal S262144x32 .f32) (ix2 r k) := by
  obtain ⟨e0, e1, -⟩ := index_facts t
  show V m c main_arg0 (((cfg0.win 0).blk t).view.emb (ix2 p k)) = _
  congr 1; funext a; apply Fin.ext
  match a with
  | ⟨0, _⟩ => show win0_0.index t (0 : Fin 2) * 256 + 1 * p.val = r.val; omega
  | ⟨1, _⟩ => show win0_0.index t (1 : Fin 2) * 32 + 1 * k.val = k.val; omega

/-- The first layer's weights are staged whole at every point, -/
theorem wblk1 (c : Dev nD) (t : Fin cfg0.N) : (iblk m c 1 t : Vec Ideal S32x80 .f32) = V m c main_arg1 := by
  obtain ⟨-, -, e0, e1, -⟩ := index_facts t
  funext y
  show V m c main_arg1 (((cfg0.win 1).blk t).view.emb y) = V m c main_arg1 y
  congr 1; funext a; apply Fin.ext
  match a with
  | ⟨0, _⟩ => show win0_1.index t (0 : Fin 2) * 32 + 1 * (y 0).val = (y 0).val; omega
  | ⟨1, _⟩ => show win0_1.index t (1 : Fin 2) * 80 + 1 * (y 1).val = (y 1).val; omega

/-- its bias row, -/
theorem wblk2 (c : Dev nD) (t : Fin cfg0.N) : (iblk m c 2 t : Vec Ideal S1x80 .f32) = V m c main_arg2 := by
  obtain ⟨-, -, -, -, e0, e1, -⟩ := index_facts t
  funext y
  show V m c main_arg2 (((cfg0.win 2).blk t).view.emb y) = V m c main_arg2 y
  congr 1; funext a; apply Fin.ext
  match a with
  | ⟨0, _⟩ => show win0_2.index t (0 : Fin 2) * 1 + 1 * (y 0).val = (y 0).val; omega
  | ⟨1, _⟩ => show win0_2.index t (1 : Fin 2) * 80 + 1 * (y 1).val = (y 1).val; omega

/-- the second layer's weights, -/
theorem wblk3 (c : Dev nD) (t : Fin cfg0.N) : (iblk m c 3 t : Vec Ideal S64x16 .f32) = V m c main_arg3 := by
  obtain ⟨-, -, -, -, -, -, e0, e1, -⟩ := index_facts t
  funext y
  show V m c main_arg3 (((cfg0.win 3).blk t).view.emb y) = V m c main_arg3 y
  congr 1; funext a; apply Fin.ext
  match a with
  | ⟨0, _⟩ => show win0_3.index t (0 : Fin 2) * 64 + 1 * (y 0).val = (y 0).val; omega
  | ⟨1, _⟩ => show win0_3.index t (1 : Fin 2) * 16 + 1 * (y 1).val = (y 1).val; omega

/-- and its bias row. -/
theorem wblk4 (c : Dev nD) (t : Fin cfg0.N) : (iblk m c 4 t : Vec Ideal S1x16 .f32) = V m c main_arg4 := by
  obtain ⟨-, -, -, -, -, -, -, -, e0, e1, -⟩ := index_facts t
  funext y
  show V m c main_arg4 (((cfg0.win 4).blk t).view.emb y) = V m c main_arg4 y
  congr 1; funext a; apply Fin.ext
  match a with
  | ⟨0, _⟩ => show win0_4.index t (0 : Fin 2) * 1 + 1 * (y 0).val = (y 0).val; omega
  | ⟨1, _⟩ => show win0_4.index t (1 : Fin 2) * 16 + 1 * (y 1).val = (y 1).val; omega

/-- What point `t` writes back to the first result is block `t` of the interneuron spikes of the whole input. -/
theorem flushed5_eq (c : Dev nD) (t : Fin cfg0.N) :
    (dats m 0 c).flushed 5 t = ((cfg0.win 5).blk t).view.read (Elt Ideal)
      (spikes1 (N := 262144) (V m c main_arg0) (V m c main_arg1) (V m c main_arg2)) := by
  rw [Value.flushed5]
  unfold out0_5
  rw [View.canon_unit_zero origin]
  simp only [View.ld_unit_zero (S := S256x32) origin, View.ld_unit_zero (S := S32x80) origin,
    View.ld_unit_zero (S := S1x80) origin]
  rw [wblk1, wblk2]
  obtain ⟨-, -, -, -, -, -, -, -, -, -, e0, e1, -⟩ := index_facts t
  funext y
  show k0_pay2 (iblk m c 0 t) (V m c main_arg1) (V m c main_arg2) y
    = spikes1 (N := 262144) (V m c main_arg0) (V m c main_arg1) (V m c main_arg2) (((cfg0.win 5).blk t).view.emb y)
  have hy0 : (y 0).val < 256 := (y 0).isLt
  have hy1 : (y 1).val < 64 := (y 1).isLt
  refine (congrArg (k0_pay2 (iblk m c 0 t) (V m c main_arg1) (V m c main_arg2)) (eq_ix2 (n0 := 256) (n1 := 64) y)).trans ?_
  refine (spike1_at _ _ _ (y 0) (y 1)).trans ?_
  refine spikes1_of_row (R := 256) (N := 262144) _ _ _ _ (y 0) (y 1) _ (fun k => xrow m c t (y 0) k _ ?_) ?_
  · show win0_5.index t (0 : Fin 2) * 256 + 1 * (y 0).val = t.val * 256 + (y 0).val; omega
  · show win0_5.index t (1 : Fin 2) * 64 + 1 * (y 1).val = (y 1).val; omega

/-- What point `t` writes back to the second result is block `t` of the second layer's spikes of the whole input. -/
theorem flushed6_eq (c : Dev nD) (t : Fin cfg0.N) :
    (dats m 0 c).flushed 6 t = ((cfg0.win 6).blk t).view.read (Elt Ideal)
      (spikes2 (N := 262144) (V m c main_arg0) (V m c main_arg1) (V m c main_arg2) (V m c main_arg3) (V m c main_arg4)) := by
  rw [Value.flushed6]
  unfold out0_6
  rw [View.canon_unit_zero origin]
  simp only [View.ld_unit_zero (S := S256x32) origin, View.ld_unit_zero (S := S32x80) origin,
    View.ld_unit_zero (S := S1x80) origin, View.ld_unit_zero (S := S64x16) origin, View.ld_unit_zero (S := S1x16) origin]
  rw [wblk1, wblk2, wblk3, wblk4]
  obtain ⟨-, -, -, -, -, -, -, -, -, -, -, -, e0, e1, -⟩ := index_facts t
  funext y
  show k0_pay4 (iblk m c 0 t) (V m c main_arg1) (V m c main_arg2) (V m c main_arg3) (V m c main_arg4) y
    = spikes2 (N := 262144) (V m c main_arg0) (V m c main_arg1) (V m c main_arg2) (V m c main_arg3) (V m c main_arg4)
        (((cfg0.win 6).blk t).view.emb y)
  have hy0 : (y 0).val < 256 := (y 0).isLt
  have hy1 : (y 1).val < 16 := (y 1).isLt
  refine (congrArg (k0_pay4 (iblk m c 0 t) (V m c main_arg1) (V m c main_arg2) (V m c main_arg3) (V m c main_arg4))
    (eq_ix2 (n0 := 256) (n1 := 16) y)).trans ?_
  refine (spike2_at _ _ _ _ _ (y 0) (y 1)).trans ?_
  refine spikes2_of_row (R := 256) (N := 262144) _ _ _ _ _ _ (y 0) (y 1) _ (fun k => xrow m c t (y 0) k _ ?_) ?_
  · show win0_6.index t (0 : Fin 2) * 256 + 1 * (y 0).val = t.val * 256 + (y 0).val; omega
  · show win0_6.index t (1 : Fin 2) * 16 + 1 * (y 1).val = (y 1).val; omega

/-- What point `t` writes back to the third result is block `t` of the output spikes of the whole input. -/
theorem flushed7_eq (c : Dev nD) (t : Fin cfg0.N) :
    (dats m 0 c).flushed 7 t = ((cfg0.win 7).blk t).view.read (Elt Ideal)
      (spikesOut (N := 262144) (V m c main_arg0) (V m c main_arg1) (V m c main_arg2) (V m c main_arg3) (V m c main_arg4)) := by
  rw [Value.flushed7]
  unfold out0_7
  rw [View.canon_unit_zero origin]
  simp only [View.ld_unit_zero (S := S256x32) origin, View.ld_unit_zero (S := S32x80) origin,
    View.ld_unit_zero (S := S1x80) origin, View.ld_unit_zero (S := S64x16) origin, View.ld_unit_zero (S := S1x16) origin]
  rw [wblk1, wblk2, wblk3, wblk4]
  obtain ⟨-, -, -, -, -, -, -, -, -, -, -, -, -, -, e0, e1⟩ := index_facts t
  funext y
  show k0_pay5 (iblk m c 0 t) (V m c main_arg1) (V m c main_arg2) (V m c main_arg3) (V m c main_arg4) y
    = spikesOut (N := 262144) (V m c main_arg0) (V m c main_arg1) (V m c main_arg2) (V m c main_arg3) (V m c main_arg4)
        (((cfg0.win 7).blk t).view.emb y)
  have hy0 : (y 0).val < 256 := (y 0).isLt
  have hy1 : (y 1).val < 16 := (y 1).isLt
  refine (congrArg (k0_pay5 (iblk m c 0 t) (V m c main_arg1) (V m c main_arg2) (V m c main_arg3) (V m c main_arg4))
    (eq_ix2 (n0 := 256) (n1 := 16) y)).trans ?_
  refine (spikeOut_at _ _ _ _ _ (y 0) (y 1)).trans ?_
  refine spikesOut_of_row (R := 256) (N := 262144) _ _ _ _ _ _ (y 0) (y 1) _ (fun k => xrow m c t (y 0) k _ ?_) ?_
  · show win0_7.index t (0 : Fin 2) * 256 + 1 * (y 0).val = t.val * 256 + (y 0).val; omega
  · show win0_7.index t (1 : Fin 2) * 16 + 1 * (y 1).val = (y 1).val; omega

/-- The point whose blocks hold row `r`: the row's block number. -/
def pointOf (r : Nat) (hr : r < 262144) : Fin cfg0.N := ⟨r / 256, by rw [show cfg0.N = 1024 from N_0]; omega⟩

/-- Every index of the first result is in the block of its row's point. -/
theorem cover5 (i : S262144x64.Idx) :
    ∃ t : Fin cfg0.N, (cfg0.win 5).flush t = true ∧ i ∈ ((cfg0.win 5).blk t).view.set := by
  have hi0 : (i 0).val < 262144 := (i 0).isLt
  have hi1 : (i 1).val < 64 := (i 1).isLt
  refine ⟨pointOf (i 0).val hi0, flush0_5 _, ?_⟩
  obtain ⟨-, -, -, -, -, -, -, -, -, -, e0, e1, -⟩ := index_facts (pointOf (i 0).val hi0)
  have ht : (pointOf (i 0).val hi0).val = (i 0).val / 256 := rfl
  show i ∈ ((View.whole main_v0_0).slice (win0_5.rect (pointOf (i 0).val hi0))).set
  rw [View.set_slice_whole, Rect.mem_set_unit]
  intro a
  match a with
  | ⟨0, _⟩ =>
      show win0_5.index (pointOf (i 0).val hi0) (0 : Fin 2) * 256 ≤ (i 0).val
        ∧ (i 0).val < win0_5.index (pointOf (i 0).val hi0) (0 : Fin 2) * 256 + 256
      omega
  | ⟨1, _⟩ =>
      show win0_5.index (pointOf (i 0).val hi0) (1 : Fin 2) * 64 ≤ (i 1).val
        ∧ (i 1).val < win0_5.index (pointOf (i 0).val hi0) (1 : Fin 2) * 64 + 64
      omega

/-- The same for the second result, -/
theorem cover6 (i : S262144x16.Idx) :
    ∃ t : Fin cfg0.N, (cfg0.win 6).flush t = true ∧ i ∈ ((cfg0.win 6).blk t).view.set := by
  have hi0 : (i 0).val < 262144 := (i 0).isLt
  have hi1 : (i 1).val < 16 := (i 1).isLt
  refine ⟨pointOf (i 0).val hi0, flush0_6 _, ?_⟩
  obtain ⟨-, -, -, -, -, -, -, -, -, -, -, -, e0, e1, -⟩ := index_facts (pointOf (i 0).val hi0)
  have ht : (pointOf (i 0).val hi0).val = (i 0).val / 256 := rfl
  show i ∈ ((View.whole main_v0_1).slice (win0_6.rect (pointOf (i 0).val hi0))).set
  rw [View.set_slice_whole, Rect.mem_set_unit]
  intro a
  match a with
  | ⟨0, _⟩ =>
      show win0_6.index (pointOf (i 0).val hi0) (0 : Fin 2) * 256 ≤ (i 0).val
        ∧ (i 0).val < win0_6.index (pointOf (i 0).val hi0) (0 : Fin 2) * 256 + 256
      omega
  | ⟨1, _⟩ =>
      show win0_6.index (pointOf (i 0).val hi0) (1 : Fin 2) * 16 ≤ (i 1).val
        ∧ (i 1).val < win0_6.index (pointOf (i 0).val hi0) (1 : Fin 2) * 16 + 16
      omega

/-- and for the third. -/
theorem cover7 (i : S262144x16.Idx) :
    ∃ t : Fin cfg0.N, (cfg0.win 7).flush t = true ∧ i ∈ ((cfg0.win 7).blk t).view.set := by
  have hi0 : (i 0).val < 262144 := (i 0).isLt
  have hi1 : (i 1).val < 16 := (i 1).isLt
  refine ⟨pointOf (i 0).val hi0, flush0_7 _, ?_⟩
  obtain ⟨-, -, -, -, -, -, -, -, -, -, -, -, -, -, e0, e1⟩ := index_facts (pointOf (i 0).val hi0)
  have ht : (pointOf (i 0).val hi0).val = (i 0).val / 256 := rfl
  show i ∈ ((View.whole main_v0_2).slice (win0_7.rect (pointOf (i 0).val hi0))).set
  rw [View.set_slice_whole, Rect.mem_set_unit]
  intro a
  match a with
  | ⟨0, _⟩ =>
      show win0_7.index (pointOf (i 0).val hi0) (0 : Fin 2) * 256 ≤ (i 0).val
        ∧ (i 0).val < win0_7.index (pointOf (i 0).val hi0) (0 : Fin 2) * 256 + 256
      omega
  | ⟨1, _⟩ =>
      show win0_7.index (pointOf (i 0).val hi0) (1 : Fin 2) * 16 ≤ (i 1).val
        ∧ (i 1).val < win0_7.index (pointOf (i 0).val hi0) (1 : Fin 2) * 16 + 16
      omega

/-- After the run the first result array is the interneuron spikes of the argument arrays, -/
theorem final5 (c : Dev nD) : (dats m 0 c).arrAt 5 cfg0.N
    = spikes1 (N := 262144) (m ((c : Thread nD τ).loc main_arg0)) (m ((c : Thread nD τ).loc main_arg1))
        (m ((c : Thread nD τ).loc main_arg2)) :=
  (dats m 0 c).arrAt_eq_of_cover 5 _ (fun t _ => flushed5_eq m c t) cover5

/-- the second the second layer's spikes, -/
theorem final6 (c : Dev nD) : (dats m 0 c).arrAt 6 cfg0.N
    = spikes2 (N := 262144) (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 6 _ (fun t _ => flushed6_eq m c t) cover6

/-- and the third the output spikes. -/
theorem final7 (c : Dev nD) : (dats m 0 c).arrAt 7 cfg0.N
    = spikesOut (N := 262144) (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 7 _ (fun t _ => flushed7_eq m c t) cover7

/-- The run: every weakly fair execution ends with the three result arrays at the network's three functions of the
    argument arrays, and the arguments as they were. -/
theorem run : θ_run defs (onTc (τ := τ) (main (F := Ideal))) ⟨m, fun _ => 0, ρ⟩ fun r => ∀ c : Dev nD,
      r.2.mem ((c : Thread nD τ).loc main_v0_0)
        = spikes1 (N := 262144) (m ((c : Thread nD τ).loc main_arg0)) (m ((c : Thread nD τ).loc main_arg1))
            (m ((c : Thread nD τ).loc main_arg2))
      ∧ r.2.mem ((c : Thread nD τ).loc main_v0_1)
        = spikes2 (N := 262144) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_v0_2)
        = spikesOut (N := 262144) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c),
      (h c).2.2.1.trans (final7 m c), (h c).2.2.2⟩)
    (Value.run_blocks m ρ)

end Cert.ReferenceIdeal.Net

end
-- ==== Proof.lean ====
/-
  The kernel and its reference are ONE network run on row blocks of different height.

  Both programs take 262144 rows of 32 inputs and four weight arrays, and for every row compute
    a = x · w13 + b13   (80 columns),            s1 = [a(0 … 63) > 0],
    h = s1 · w2n + b2n  (16 columns),            s2 = [h > 0],        out = [h + a(64 … 79) > 0],
  returning s1, s2 and out. The kernel runs this body on 32 blocks of 8192 rows and writes each threshold as a select
  between the constants one and zero; the reference runs it on 1024 blocks of 256 rows and writes each threshold as the
  comparison's bit widened to a word and converted. Each row's values depend on that row alone, so both programs leave,
  in each result array, the same function of the argument arrays (Proof/SpikeNet.lean states it; Proof/KernelBlocks.lean
  and Proof/ReferenceBlocks.lean read it off the two runs). No law of arithmetic beyond reading a matrix product as a
  sum is used, so the inputs' finiteness is never opened.

  The three frames are the generated ones; the idealization rewrote nothing, so `preserves` is trivial.
-/
import proofs.«158934_g2000306523512037_pallasbulk_875_2_alg».proof.Defs
import proofs.«158934_g2000306523512037_pallasbulk_875_2_alg».proof.Proof.Gen.Kernel
import proofs.«158934_g2000306523512037_pallasbulk_875_2_alg».proof.Proof.Gen.Kernel.Skeleton
import proofs.«158934_g2000306523512037_pallasbulk_875_2_alg».proof.Proof.Gen.Kernel.Launch
import proofs.«158934_g2000306523512037_pallasbulk_875_2_alg».proof.Proof.Gen.Kernel.Points
import proofs.«158934_g2000306523512037_pallasbulk_875_2_alg».proof.Proof.Gen.Kernel.Frame
import proofs.«158934_g2000306523512037_pallasbulk_875_2_alg».proof.Proof.Gen.KernelIdeal
import proofs.«158934_g2000306523512037_pallasbulk_875_2_alg».proof.Proof.Gen.KernelIdeal.Skeleton
import proofs.«158934_g2000306523512037_pallasbulk_875_2_alg».proof.Proof.Gen.KernelIdeal.Launch
import proofs.«158934_g2000306523512037_pallasbulk_875_2_alg».proof.Proof.Gen.KernelIdeal.Points
import proofs.«158934_g2000306523512037_pallasbulk_875_2_alg».proof.Proof.Gen.KernelIdeal.Frame
import proofs.«158934_g2000306523512037_pallasbulk_875_2_alg».proof.Proof.Gen.ReferenceIdeal
import proofs.«158934_g2000306523512037_pallasbulk_875_2_alg».proof.Proof.Gen.ReferenceIdeal.Skeleton
import proofs.«158934_g2000306523512037_pallasbulk_875_2_alg».proof.Proof.Gen.ReferenceIdeal.Launch
import proofs.«158934_g2000306523512037_pallasbulk_875_2_alg».proof.Proof.Gen.ReferenceIdeal.Points
import proofs.«158934_g2000306523512037_pallasbulk_875_2_alg».proof.Proof.Gen.ReferenceIdeal.Frame
import proofs.«158934_g2000306523512037_pallasbulk_875_2_alg».proof.Proof.Gen.Pre_finite_inputs
import proofs.«158934_g2000306523512037_pallasbulk_875_2_alg».proof.Proof.Gen.KernelIdeal.Value
import proofs.«158934_g2000306523512037_pallasbulk_875_2_alg».proof.Proof.Gen.ReferenceIdeal.Value
import proofs.«158934_g2000306523512037_pallasbulk_875_2_alg».proof.Proof.KernelBlocks
import proofs.«158934_g2000306523512037_pallasbulk_875_2_alg».proof.Proof.ReferenceBlocks
import Idealize.ShloMosaic.Adequacy
import Idealize.ShloMosaic.Init

noncomputable section

namespace Cert.Proof

open Idealize.ShloMosaic Idealize.SL.Sem Cert.SpikeNet

/-- The word-level kernel runs and keeps its arguments. -/
theorem frame_kernel : Cert.frame_Kernel := fun m ρ _ => Cert.Kernel.Gen.frame m ρ

/-- So does the idealized kernel, -/
theorem frame_kernelIdeal : Cert.frame_KernelIdeal := fun m ρ _ => Cert.KernelIdeal.Gen.frame m ρ

/-- and the idealized reference, itself a pipelined kernel. -/
theorem frame_referenceIdeal : Cert.frame_ReferenceIdeal := fun m ρ _ => Cert.ReferenceIdeal.Gen.frame m ρ

/-- From arguments that agree, the two idealized programs end with the three result arrays at the network's three
    functions of those arguments. -/
theorem algebraic : Cert.algebraic_KernelIdeal_ReferenceIdeal := by
  intro m ρ m' ρ' _ hagree
  refine ⟨fun c => spikes1 (N := 262144) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => spikes2 (N := 262144) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => spikesOut (N := 262144) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Net.run m ρ, ?_⟩
  refine (θ_run Cert.ReferenceIdeal.defs _ _).mono (fun r h c => ?_) (Cert.ReferenceIdeal.Net.run m' ρ')
  obtain ⟨e0, e1, e2, e3, e4⟩ := hagree c
  obtain ⟨h0, h1, h2, hkeep⟩ := h c
  refine ⟨h0.trans ?_, h1.trans ?_, h2.trans ?_, hkeep⟩
  · rw [e0, e1, e2]
  · rw [e0, e1, e2, e3, e4]
  · rw [e0, e1, e2, e3, e4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
